-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x20000x1024 : Shape := ⟨3, ![1, 20000, 1024]⟩
abbrev S1024x4096 : Shape := ⟨2, ![1024, 4096]⟩
abbrev S4096 : Shape := ⟨1, ![4096]⟩
abbrev S4096x81 : Shape := ⟨2, ![4096, 81]⟩
abbrev S81 : Shape := ⟨1, ![81]⟩
abbrev S4096x4 : Shape := ⟨2, ![4096, 4]⟩
abbrev S4 : Shape := ⟨1, ![4]⟩
abbrev S_ : Shape := ⟨0, ![]⟩

class Facts : Prop where
  bcast_S_S1x20000x1024 : S_.BroadcastsInDim S1x20000x1024 (![] : Fin 0 → Fin S1x20000x1024.rank)
  reducesTo_S1x20000x1024_S_d0_1_2 : S1x20000x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x81 : S_.BroadcastsInDim S4096x81 (![] : Fin 0 → Fin S4096x81.rank)
  reducesTo_S4096x81_S_d0_1 : S4096x81.ReducesTo [0, 1] S_
  bcast_S_S81 : S_.BroadcastsInDim S81 (![] : Fin 0 → Fin S81.rank)
  reducesTo_S81_S_d0 : S81.ReducesTo [0] S_
  bcast_S_S4096x4 : S_.BroadcastsInDim S4096x4 (![] : Fin 0 → Fin S4096x4.rank)
  reducesTo_S4096x4_S_d0_1 : S4096x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S81 .f32) (main_arg5 : FVec F S4096x4 .f32) (main_arg6 : FVec F S4 .f32) (main_v13 : IVec S_ 1) (main_v16 : IVec S4096x81 1) : IVec S_ 1 :=
  let main_c_5 : IVec S_ 1 := constantI S_ 1 1#1
  let main_v17 : IVec S_ 1 := (fun x v => Host.reduce IntOp.andi x v reducesTo_S4096x81_S_d0_1 h_S_) main_v16 main_c_5
  let main_v18 : IVec S_ 1 := andi main_v13 main_v17
  let main_v19 : FVec F S81 .f32 := Host.absf main_arg4
  let main_cst_6 : FVec F S_ .f32 := constant S_ .f32 0x7F800000#32
  let main_v20 : FVec F S81 .f32 := broadcastInDim S81 ![] bcast_S_S81 main_cst_6
  let main_v21 : IVec S81 1 := cmpf .olt main_v19 main_v20
  let main_c_7 : IVec S_ 1 := constantI S_ 1 1#1
  let main_v22 : IVec S_ 1 := (fun x v => Host.reduce IntOp.andi x v reducesTo_S81_S_d0 h_S_) main_v21 main_c_7
  let main_v23 : IVec S_ 1 := andi main_v18 main_v22
  let main_v24 : FVec F S4096x4 .f32 := Host.absf main_arg5
  let main_cst_8 : FVec F S_ .f32 := constant S_ .f32 0x7F800000#32
  let main_v25 : FVec F S4096x4 .f32 := broadcastInDim S4096x4 ![] bcast_S_S4096x4 main_cst_8
  let main_v26 : IVec S4096x4 1 := cmpf .olt main_v24 main_v25
  let main_c_9 : IVec S_ 1 := constantI S_ 1 1#1
  let main_v27 : IVec S_ 1 := (fun x v => Host.reduce IntOp.andi x v reducesTo_S4096x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S1x20000x1024 .f32) (main_arg1 : FVec F S1024x4096 .f32) (main_arg2 : FVec F S4096 .f32) (main_arg3 : FVec F S4096x81 .f32) (main_arg4 : FVec F S81 .f32) (main_arg5 : FVec F S4096x4 .f32) (main_arg6 : FVec F S4 .f32) : IVec S_ 1 :=
  let main_v0 : FVec F S1x20000x1024 .f32 := Host.absf main_arg0
  let main_cst : FVec F S_ .f32 := constant S_ .f32 0x7F800000#32
  let main_v1 : FVec F S1x20000x1024 .f32 := broadcastInDim S1x20000x1024 ![] bcast_S_S1x20000x1024 main_cst
  let main_v2 : IVec S1x20000x1024 1 := cmpf .olt main_v0 main_v1
  let main_c : IVec S_ 1 := constantI S_ 1 1#1
  let main_v3 : IVec S_ 1 := (fun x v => Host.reduce IntOp.andi x v reducesTo_S1x20000x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x81 .f32 := Host.absf main_arg3
  let main_cst_4 : FVec F S_ .f32 := constant S_ .f32 0x7F800000#32
  let main_v15 : FVec F S4096x81 .f32 := broadcastInDim S4096x81 ![] bcast_S_S4096x81 main_cst_4
  let main_v16 : IVec S4096x81 1 := cmpf .olt main_v14 main_v15
  fn_part1 (F := F) main_arg4 main_arg5 main_arg6 main_v13 main_v16
-- ==== Kernel.lean ====
abbrev S1x20000x1024 : Shape := ⟨3, ![1, 20000, 1024]⟩
abbrev S1024x4096 : Shape := ⟨2, ![1024, 4096]⟩
abbrev S4096 : Shape := ⟨1, ![4096]⟩
abbrev S4096x81 : Shape := ⟨2, ![4096, 81]⟩
abbrev S81 : Shape := ⟨1, ![81]⟩
abbrev S4096x4 : Shape := ⟨2, ![4096, 4]⟩
abbrev S4 : Shape := ⟨1, ![4]⟩
abbrev S1024x128 : Shape := ⟨2, ![1024, 128]⟩
abbrev S1x128 : Shape := ⟨2, ![1, 128]⟩
abbrev S1x4096 : Shape := ⟨2, ![1, 4096]⟩
abbrev S1024x81 : Shape := ⟨2, ![1024, 81]⟩
abbrev S1024x4 : Shape := ⟨2, ![1024, 4]⟩
abbrev S1024x43 : Shape := ⟨2, ![1024, 43]⟩
abbrev S1x81 : Shape := ⟨2, ![1, 81]⟩
abbrev S1x4 : Shape := ⟨2, ![1, 4]⟩
abbrev S1x43 : Shape := ⟨2, ![1, 43]⟩
abbrev S1x20000x81 : Shape := ⟨3, ![1, 20000, 81]⟩
abbrev S1x20000x4 : Shape := ⟨3, ![1, 20000, 4]⟩
abbrev S1x2000x1024 : Shape := ⟨3, ![1, 2000, 1024]⟩
abbrev S1x2000x81 : Shape := ⟨3, ![1, 2000, 81]⟩
abbrev S1x2000x4 : Shape := ⟨3, ![1, 2000, 4]⟩
abbrev S2000x1024 : Shape := ⟨2, ![2000, 1024]⟩
abbrev S2000x128 : Shape := ⟨2, ![2000, 128]⟩
abbrev S2000x81 : Shape := ⟨2, ![2000, 81]⟩
abbrev S2000x4 : Shape := ⟨2, ![2000, 4]⟩

abbrev nBuf : Space → Nat
  | .hbm => 11
  | .vmem => 16
  | .smem => 0
  | _ => 0

abbrev bufTy : (tb : Table) → Fin (tcTables nBuf tb) → BufTy
  | .hbm, ⟨0, _⟩ => ⟨S1x20000x1024, .f32⟩
  | .hbm, ⟨1, _⟩ => ⟨S1024x4096, .f32⟩
  | .hbm, ⟨2, _⟩ => ⟨S4096, .f32⟩
  | .hbm, ⟨3, _⟩ => ⟨S4096x81, .f32⟩
  | .hbm, ⟨4, _⟩ => ⟨S81, .f32⟩
  | .hbm, ⟨5, _⟩ => ⟨S4096x4, .f32⟩
  | .hbm, ⟨6, _⟩ => ⟨S4, .f32⟩
  | .hbm, ⟨7, _⟩ => ⟨S1024x128, .f32⟩
  | .hbm, ⟨8, _⟩ => ⟨S1x128, .f32⟩
  | .hbm, ⟨9, _⟩ => ⟨S1x20000x81, .f32⟩
  | .hbm, ⟨10, _⟩ => ⟨S1x20000x4, .f32⟩
  | .local _ .vmem, ⟨0, _⟩ => ⟨S1024x4096, .f32⟩
  | .local _ .vmem, ⟨1, _⟩ => ⟨S4096, .f32⟩
  | .local _ .vmem, ⟨2, _⟩ => ⟨S4096x81, .f32⟩
  | .local _ .vmem, ⟨3, _⟩ => ⟨S81, .f32⟩
  | .local _ .vmem, ⟨4, _⟩ => ⟨S4096x4, .f32⟩
  | .local _ .vmem, ⟨5, _⟩ => ⟨S4, .f32⟩
  | .local _ .vmem, ⟨6, _⟩ => ⟨S1024x128, .f32⟩
  | .local _ .vmem, ⟨7, _⟩ => ⟨S1x128, .f32⟩
  | .local _ .vmem, ⟨8, _⟩ => ⟨S1x2000x1024, .f32⟩
  | .local _ .vmem, ⟨9, _⟩ => ⟨S1x2000x1024, .f32⟩
  | .local _ .vmem, ⟨10, _⟩ => ⟨S1024x128, .f32⟩
  | .local _ .vmem, ⟨11, _⟩ => ⟨S1x128, .f32⟩
  | .local _ .vmem, ⟨12, _⟩ => ⟨S1x2000x81, .f32⟩
  | .local _ .vmem, ⟨13, _⟩ => ⟨S1x2000x81, .f32⟩
  | .local _ .vmem, ⟨14, _⟩ => ⟨S1x2000x4, .f32⟩
  | .local _ .vmem, ⟨15, _⟩ => ⟨S1x2000x4, .f32⟩
  | _, _ => ⟨S1x20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2000x81 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  inb_S4096_S4096_0 : ∀ a, (![0] : Fin 1 → Nat) a + S4096.size a ≤ S4096.size a
  h_S4096 : 0 < S4096.numel
  shapeCasts_S4096_S1x4096 : S4096.ShapeCasts S1x4096
  inb_S4096x81_S4096x81_0_0 : ∀ a, (![0, 0] : Fin 2 → Nat) a + S4096x81.size a ≤ S4096x81.size a
  h_S4096x81 : 0 < S4096x81.numel
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  concatenates_S1024x81_S1024x4_S1024x43_S1024x128_d1 : Shape.Concatenates [S1024x81, S1024x4, S1024x43] S1024x128 1
  inb_S1024x128_S1024x128_0_0 : ∀ a, (![0, 0] : Fin 2 → Nat) a + S1024x128.size a ≤ S1024x128.size a
  h_S1024x128 : 0 < S1024x128.numel
  inb_S81_S81_0 : ∀ a, (![0] : Fin 1 → Nat) a + S81.size a ≤ S81.size a
  h_S81 : 0 < S81.numel
  shapeCasts_S81_S1x81 : S81.ShapeCasts S1x81
  inb_S4_S4_0 : ∀ a, (![0] : Fin 1 → Nat) a + S4.size a ≤ S4.size a
  h_S4 : 0 < S4.numel
  shapeCasts_S4_S1x4 : S4.ShapeCasts S1x4
  concatenates_S1x81_S1x4_S1x43_S1x128_d1 : Shape.Concatenates [S1x81, S1x4, S1x43] S1x128 1
  inb_S1x128_S1x128_0_0 : ∀ a, (![0, 0] : Fin 2 → Nat) a + S1x128.size a ≤ S1x128.size a
  h_S1x128 : 0 < S1x128.numel
  inb_S1x2000x1024_S1x2000x1024_0_0_0 : ∀ a, (![0, 0, 0] : Fin 3 → Nat) a + S1x2000x1024.size a ≤ S1x2000x1024.size a
  h_S1x2000x1024 : 0 < S1x2000x1024.numel
  shapeCasts_S1x2000x1024_S2000x1024 : S1x2000x1024.ShapeCasts S2000x1024
  shapeCasts_S1024x128_S1024x128 : S1024x128.ShapeCasts S1024x128
  shapeCasts_S1x128_S1x128 : S1x128.ShapeCasts S1x128
  broadcasts_S1x128_S2000x128 : S1x128.Broadcasts S2000x128
  slices_S2000x128_o0_0_S2000x81 : S2000x128.Slices ![0, 0] S2000x81
  inb_S1x2000x81_S1x2000x81_0_0_0 : ∀ a, (![0, 0, 0] : Fin 3 → Nat) a + S1x2000x81.size a ≤ S1x2000x81.size a
  h_S1x2000x81 : 0 < S1x2000x81.numel
  shapeCasts_S1x2000x81_S2000x81 : S1x2000x81.ShapeCasts S2000x81
  shapeCasts_S2000x81_S1x2000x81 : S2000x81.ShapeCasts S1x2000x81
  slices_S2000x128_o0_81_S2000x4 : S2000x128.Slices ![0, 81] S2000x4
  inb_S1x2000x4_S1x2000x4_0_0_0 : ∀ a, (![0, 0, 0] : Fin 3 → Nat) a + S1x2000x4.size a ≤ S1x2000x4.size a
  h_S1x2000x4 : 0 < S1x2000x4.numel
  shapeCasts_S1x2000x4_S2000x4 : S1x2000x4.ShapeCasts S2000x4
  shapeCasts_S2000x4_S1x2000x4 : S2000x4.ShapeCasts S1x2000x4
  dot_S1024x4096_S4096x81_S1024x81_1_0_0_1_n_n_wf : DotDims.WF S1024x4096 S4096x81 S1024x81 [1] [0] [0] [1] [] []
  dot_S1024x4096_S4096x4_S1024x4_1_0_0_1_n_n_wf : DotDims.WF S1024x4096 S4096x4 S1024x4 [1] [0] [0] [1] [] []
  dot_S1x4096_S4096x81_S1x81_1_0_0_1_n_n_wf : DotDims.WF S1x4096 S4096x81 S1x81 [1] [0] [0] [1] [] []
  dot_S1x4096_S4096x4_S1x4_1_0_0_1_n_n_wf : DotDims.WF S1x4096 S4096x4 S1x4 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x81.size a ≤ S4096x81.size a
  hwx0_2 : ∀ i : grid0.Coords, EltTy.bits .f32 = 32 ∨ (Rect.block (s := S4096x81) S4096x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81.size a ≤ S81.size a
  hwx0_3 : ∀ i : grid0.Coords, EltTy.bits .f32 = 32 ∨ (Rect.block (s := S81) S81.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x4.size a ≤ S4096x4.size a
  hwx0_4 : ∀ i : grid0.Coords, EltTy.bits .f32 = 32 ∨ (Rect.block (s := S4096x4) S4096x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .f32 = 32 ∨ (Rect.block (s := S1024x128) S1024x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x1024.size a ≤ S1x20000x1024.size a
  hwx1_0 : ∀ i : grid1.Coords, EltTy.bits .f32 = 32 ∨ (Rect.block (s := S1x20000x1024) S1x2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2000x81.size a ≤ S1x20000x81.size a
  hwx1_3 : ∀ i : grid1.Coords, EltTy.bits .f32 = 32 ∨ (Rect.block (s := S1x20000x81) S1x2000x81.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2000x4.size a ≤ S1x20000x4.size a
  hwx1_4 : ∀ i : grid1.Coords, EltTy.bits .f32 = 32 ∨ (Rect.block (s := S1x20000x4) S1x2000x4.size (cc1_transform_4 i) (hinb1_4 i)).WholeWords (EltTy.packing .f32)

variable [Facts₀]

def dot_S1024x4096_S4096x81_S1024x81_1_0_0_1_n_n : DotDims S1024x4096 S4096x81 S1024x81 where
  lhsContracting := [1]
  rhsContracting := [0]
  lhsNonContracting := [0]
  rhsNonContracting := [1]
  lhsBatch := []
  rhsBatch := []
  wf := dot_S1024x4096_S4096x81_S1024x81_1_0_0_1_n_n_wf
def dot_S1024x4096_S4096x4_S1024x4_1_0_0_1_n_n : DotDims S1024x4096 S4096x4 S1024x4 where
  lhsContracting := [1]
  rhsContracting := [0]
  lhsNonContracting := [0]
  rhsNonContracting := [1]
  lhsBatch := []
  rhsBatch := []
  wf := dot_S1024x4096_S4096x4_S1024x4_1_0_0_1_n_n_wf
def dot_S1x4096_S4096x81_S1x81_1_0_0_1_n_n : DotDims S1x4096 S4096x81 S1x81 where
  lhsContracting := [1]
  rhsContracting := [0]
  lhsNonContracting := [0]
  rhsNonContracting := [1]
  lhsBatch := []
  rhsBatch := []
  wf := dot_S1x4096_S4096x81_S1x81_1_0_0_1_n_n_wf
def dot_S1x4096_S4096x4_S1x4_1_0_0_1_n_n : DotDims S1x4096 S4096x4 S1x4 where
  lhsContracting := [1]
  rhsContracting := [0]
  lhsNonContracting := [0]
  rhsNonContracting := [1]
  lhsBatch := []
  rhsBatch := []
  wf := dot_S1x4096_S4096x4_S1x4_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S81.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4096x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1024x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x2000x81.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x2000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x20000x1024 : Shape := ⟨3, ![1, 20000, 1024]⟩
abbrev S1024x4096 : Shape := ⟨2, ![1024, 4096]⟩
abbrev S4096 : Shape := ⟨1, ![4096]⟩
abbrev S4096x81 : Shape := ⟨2, ![4096, 81]⟩
abbrev S81 : Shape := ⟨1, ![81]⟩
abbrev S4096x4 : Shape := ⟨2, ![4096, 4]⟩
abbrev S4 : Shape := ⟨1, ![4]⟩
abbrev S20000x1024 : Shape := ⟨2, ![20000, 1024]⟩
abbrev S20000x4096 : Shape := ⟨2, ![20000, 4096]⟩
abbrev S1x4096 : Shape := ⟨2, ![1, 4096]⟩
abbrev S20000x81 : Shape := ⟨2, ![20000, 81]⟩
abbrev S1x81 : Shape := ⟨2, ![1, 81]⟩
abbrev S20000x4 : Shape := ⟨2, ![20000, 4]⟩
abbrev S1x4 : Shape := ⟨2, ![1, 4]⟩
abbrev S1x20000x4 : Shape := ⟨3, ![1, 20000, 4]⟩
abbrev S1x20000x81 : Shape := ⟨3, ![1, 20000, 81]⟩

abbrev nBuf : Space → Nat
  | .hbm => 22
  | .vmem => 0
  | .smem => 0
  | _ => 0

abbrev bufTy : (tb : Table) → Fin (tcTables nBuf tb) → BufTy
  | .hbm, ⟨0, _⟩ => ⟨S1x20000x1024, .f32⟩
  | .hbm, ⟨1, _⟩ => ⟨S1024x4096, .f32⟩
  | .hbm, ⟨2, _⟩ => ⟨S4096, .f32⟩
  | .hbm, ⟨3, _⟩ => ⟨S4096x81, .f32⟩
  | .hbm, ⟨4, _⟩ => ⟨S81, .f32⟩
  | .hbm, ⟨5, _⟩ => ⟨S4096x4, .f32⟩
  | .hbm, ⟨6, _⟩ => ⟨S4, .f32⟩
  | .hbm, ⟨7, _⟩ => ⟨S20000x1024, .f32⟩
  | .hbm, ⟨8, _⟩ => ⟨S20000x4096, .f32⟩
  | .hbm, ⟨9, _⟩ => ⟨S1x4096, .f32⟩
  | .hbm, ⟨10, _⟩ => ⟨S20000x4096, .f32⟩
  | .hbm, ⟨11, _⟩ => ⟨S20000x4096, .f32⟩
  | .hbm, ⟨12, _⟩ => ⟨S20000x81, .f32⟩
  | .hbm, ⟨13, _⟩ => ⟨S1x81, .f32⟩
  | .hbm, ⟨14, _⟩ => ⟨S20000x81, .f32⟩
  | .hbm, ⟨15, _⟩ => ⟨S20000x81, .f32⟩
  | .hbm, ⟨16, _⟩ => ⟨S20000x4, .f32⟩
  | .hbm, ⟨17, _⟩ => ⟨S1x4, .f32⟩
  | .hbm, ⟨18, _⟩ => ⟨S20000x4, .f32⟩
  | .hbm, ⟨19, _⟩ => ⟨S20000x4, .f32⟩
  | .hbm, ⟨20, _⟩ => ⟨S1x20000x4, .f32⟩
  | .hbm, ⟨21, _⟩ => ⟨S1x20000x81, .f32⟩
  | _, _ => ⟨S1x20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S1x20000x1024_S20000x1024 : S1x20000x1024.ShapeCasts S20000x1024
  bcast_S4096_S1x4096_1 : S4096.BroadcastsInDim S1x4096 (![1] : Fin 1 → Fin S1x4096.rank)
  bcast_S1x4096_S20000x4096_0_1 : S1x4096.BroadcastsInDim S20000x4096 (![0, 1] : Fin 2 → Fin S20000x4096.rank)
  bcast_S81_S1x81_1 : S81.BroadcastsInDim S1x81 (![1] : Fin 1 → Fin S1x81.rank)
  bcast_S1x81_S20000x81_0_1 : S1x81.BroadcastsInDim S20000x81 (![0, 1] : Fin 2 → Fin S20000x81.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S20000x4_S1x20000x4_1_2 : S20000x4.BroadcastsInDim S1x20000x4 (![1, 2] : Fin 2 → Fin S1x20000x4.rank)
  bcast_S20000x81_S1x20000x81_1_2 : S20000x81.BroadcastsInDim S1x20000x81 (![1, 2] : Fin 2 → Fin S1x20000x81.rank)
  dot_S20000x1024_S1024x4096_S20000x4096_1_0_0_1_n_n_wf : DotDims.WF S20000x1024 S1024x4096 S20000x4096 [1] [0] [0] [1] [] []
  dot_S20000x4096_S4096x81_S20000x81_1_0_0_1_n_n_wf : DotDims.WF S20000x4096 S4096x81 S20000x81 [1] [0] [0] [1] [] []
  dot_S20000x4096_S4096x4_S20000x4_1_0_0_1_n_n_wf : DotDims.WF S20000x4096 S4096x4 S20000x4 [1] [0] [0] [1] [] []

variable [Facts₀]

def dot_S20000x1024_S1024x4096_S20000x4096_1_0_0_1_n_n : DotDims S20000x1024 S1024x4096 S20000x4096 where
  lhsContracting := [1]
  rhsContracting := [0]
  lhsNonContracting := [0]
  rhsNonContracting := [1]
  lhsBatch := []
  rhsBatch := []
  wf := dot_S20000x1024_S1024x4096_S20000x4096_1_0_0_1_n_n_wf
def dot_S20000x4096_S4096x81_S20000x81_1_0_0_1_n_n : DotDims S20000x4096 S4096x81 S20000x81 where
  lhsContracting := [1]
  rhsContracting := [0]
  lhsNonContracting := [0]
  rhsNonContracting := [1]
  lhsBatch := []
  rhsBatch := []
  wf := dot_S20000x4096_S4096x81_S20000x81_1_0_0_1_n_n_wf
def dot_S20000x4096_S4096x4_S20000x4_1_0_0_1_n_n : DotDims S20000x4096 S4096x4 S20000x4 where
  lhsContracting := [1]
  rhsContracting := [0]
  lhsNonContracting := [0]
  rhsNonContracting := [1]
  lhsBatch := []
  rhsBatch := []
  wf := dot_S20000x4096_S4096x4_S20000x4_1_0_0_1_n_n_wf

class Facts : Prop extends Facts₀ where

variable [Facts]
-- ==== Proof.FiniteInputs.lean ====
/-
  What the precondition says. `finite_inputs` is the conjunction, over the seven argument arrays, of
  "every entry has absolute value below +∞". On the extended reals an entry with |x| < +∞ is neither infinity, so it is
  a real number: under the precondition all seven arrays are families of reals.
-/
import proofs.«154814_g34780645163084_cont_8to1_b_1480_11_alg».proof.Pre_finite_inputs
import proofs.«154814_g34780645163084_cont_8to1_b_1480_11_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has one index. -/
instance : Subsingleton S_.Idx := ⟨fun a b => funext fun d => d.elim0⟩

/-- An extended real whose absolute value max(x, −x) lies strictly below the word that denotes +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Under the precondition every entry of every argument array is a real number. -/
theorem reals_of_pre (a0 : FVec Ideal S1x20000x1024 .f32) (a1 : FVec Ideal S1024x4096 .f32) (a2 : FVec Ideal S4096 .f32)
    (a3 : FVec Ideal S4096x81 .f32) (a4 : FVec Ideal S81 .f32) (a5 : FVec Ideal S4096x4 .f32) (a6 : FVec Ideal S4 .f32)
    (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt_inf (a0 i) (Host.reduce_andi_all _ _ _ _ _ e0 i),
    fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i),
    fun i => real_of_abs_lt_inf (a4 i) (Host.reduce_andi_all _ _ _ _ _ e4 i),
    fun i => real_of_abs_lt_inf (a5 i) (Host.reduce_andi_all _ _ _ _ _ e5 i),
    fun i => real_of_abs_lt_inf (a6 i) (Host.reduce_andi_all _ _ _ _ _ e6 i)⟩

end Cert.FiniteInputs

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.MainValue.lean ====
/-
  The main kernel's two stores, read at an entry, at the exact instance. On a block x of 2000 rows, with the combined
  weights wc ([1024, 128]) and the combined bias row bc ([1, 128]), the body forms the [2000, 128] array

      acc (n, j) = ∑ k, x (0, n, k) · wc (k, j) + bc (0, j)

  and stores its columns 0..80 as the class scores' block and its columns 81..84 as the regression block.
-/
import proofs.«154814_g34780645163084_cont_8to1_b_1480_11_alg».proof.Proof.Gen.KernelIdeal.Skeleton
import proofs.«154814_g34780645163084_cont_8to1_b_1480_11_alg».proof.Proof.LibMatmulPlain
import Idealize.ShloMosaic.Lib.ValueLayout
import Idealize.ShloMosaic.Lib.Pipeline.Value

noncomputable section

namespace Cert.KernelIdeal.MainBody

open Cert.KernelIdeal Cert.KernelIdeal.Gen Idealize.ShloMosaic Idealize.ShloMosaic.ValueIdx

/-- A pointwise sum read at an index, at the exact instance, is the sum of the entries. -/
theorem addf_at {s : Shape} (A B : FVec Ideal s .f32) (i : s.Idx) : addf A B i = A i + B i := rfl

/-- Entry (n, j) of the accumulated [2000, 128] array. -/
theorem acc_at (x : Vec Ideal S1x2000x1024 .f32) (wc : Vec Ideal S1024x128 .f32) (bc : Vec Ideal S1x128 .f32)
    (n : Fin 2000) (j : Fin 128) :
    k1_pay1 (F := Ideal) x wc bc (ix2 n j)
      = (∑ k : Fin 1024, x (ix3 (0 : Fin 1) n k) * wc (ix2 k j)) + bc (ix2 (0 : Fin 1) j) := by
  unfold k1_pay1
  rw [addf_at, broadcastTo_1b_ab_apply _ _ n j, shapeCast_self, shapeCast_self]
  refine congrArg (· + bc (ix2 (0 : Fin 1) j)) ?_
  refine (MatmulPlain.matmul_zero_apply none _ _ n j).trans (Finset.sum_congr rfl fun k _ => ?_)
  exact congrArg (· * wc (ix2 k j)) (shapeCast_1ab_ab_apply x _ n k)

/-- The class scores' block: entry (u, n, j) is the accumulated array's entry (n, j). -/
theorem clss_at (x : Vec Ideal S1x2000x1024 .f32) (wc : Vec Ideal S1024x128 .f32) (bc : Vec Ideal S1x128 .f32)
    (u : Fin 1) (n : Fin 2000) (j : Fin 81) (j' : Fin 128) (hj : j'.val = j.val) :
    k1_pay2 (F := Ideal) x wc bc (ix3 u n j)
      = (∑ k : Fin 1024, x (ix3 (0 : Fin 1) n k) * wc (ix2 k j')) + bc (ix2 (0 : Fin 1) j') := by
  unfold k1_pay2
  rw [shapeCast_ab_1ab_apply _ _ u n j, slice2_axis1_apply 0 _ _ n j j' (by omega)]
  exact acc_at x wc bc n j'

/-- The regression block: entry (u, n, j) is the accumulated array's entry (n, 81 + j). -/
theorem reg_at (x : Vec Ideal S1x2000x1024 .f32) (wc : Vec Ideal S1024x128 .f32) (bc : Vec Ideal S1x128 .f32)
    (u : Fin 1) (n : Fin 2000) (j : Fin 4) (j' : Fin 128) (hj : j'.val = 81 + j.val) :
    k1_pay3 (F := Ideal) x wc bc (ix3 u n j)
      = (∑ k : Fin 1024, x (ix3 (0 : Fin 1) n k) * wc (ix2 k j')) + bc (ix2 (0 : Fin 1) j') := by
  unfold k1_pay3
  rw [shapeCast_ab_1ab_apply _ _ u n j, slice2_axis1_apply 81 _ _ n j j' hj]
  exact acc_at x wc bc n j'

end Cert.KernelIdeal.MainBody

end
-- ==== Proof.Arrays.lean ====
/-
  From blocks to arrays, at the exact instance, for both regions, stated at any contents `V` a region is entered with.

  The first region has one grid point and every window's block is its whole array. So the combined weights' array
  ends holding the first store's payload of the WHOLE arrays W1, Wc, Wr, and the combined bias row the second store's
  payload of b1, Wc, bc, Wr, br.

  The second region walks the 20000 rows in ten blocks of 2000. Point t reads rows 2000 t .. 2000 t + 1999 of x and
  the whole combined weights and bias, and writes the same rows of the two results. Row n therefore lies in the block
  of point n / 2000, every row is written, and each result array ends holding, at (0, n, j),
  ∑ k, x (0, n, k) · wc (k, j') + bc (0, j') with j' = j for the class scores and j' = 81 + j for the regression output.
-/
import proofs.«154814_g34780645163084_cont_8to1_b_1480_11_alg».proof.Proof.Gen.KernelIdeal.Frame
import proofs.«154814_g34780645163084_cont_8to1_b_1480_11_alg».proof.Proof.MainValue
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

/-! ## The first region: one point, whole-array blocks -/

/-- Every block index of the first region is zero on every axis (decided over its one-point grid). -/
theorem idx0 : ∀ t : Fin cfg0.N,
    win0_0.index t (0 : Fin 2) = 0 ∧ win0_0.index t (1 : Fin 2) = 0 ∧ win0_1.index t (0 : Fin 1) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Window 0's one block is its whole array. -/
theorem blk0_0 (c : Dev nD) (t : Fin cfg0.N) : iblk0 V c 0 t = V c main_arg1 := by
  funext y
  show V c main_arg1 (((cfg0.win 0).blk t).view.emb y) = V c main_arg1 y
  refine congrArg (V c main_arg1) (funext fun a => Fin.ext ?_)
  obtain ⟨a00, a01, a10, a20, a21, a30, a40, a41, a50, a60, a61, a70, a71⟩ := idx0 t
  match a with
  | ⟨0, _⟩ => show win0_0.index t (0 : Fin 2) * 1024 + 1 * (y 0).val = (y 0).val; omega
  | ⟨1, _⟩ => show win0_0.index t (1 : Fin 2) * 4096 + 1 * (y 1).val = (y 1).val; omega

/-- Window 1's one block is its whole array. -/
theorem blk0_1 (c : Dev nD) (t : Fin cfg0.N) : iblk0 V c 1 t = V c main_arg2 := by
  funext y
  show V c main_arg2 (((cfg0.win 1).blk t).view.emb y) = V c main_arg2 y
  refine congrArg (V c main_arg2) (funext fun a => Fin.ext ?_)
  obtain ⟨a00, a01, a10, a20, a21, a30, a40, a41, a50, a60, a61, a70, a71⟩ := idx0 t
  match a with
  | ⟨0, _⟩ => show win0_1.index t (0 : Fin 1) * 4096 + 1 * (y 0).val = (y 0).val; omega

/-- Window 2's one block is its whole array. -/
theorem blk0_2 (c : Dev nD) (t : Fin cfg0.N) : iblk0 V c 2 t = V c main_arg3 := by
  funext y
  show V c main_arg3 (((cfg0.win 2).blk t).view.emb y) = V c main_arg3 y
  refine congrArg (V c main_arg3) (funext fun a => Fin.ext ?_)
  obtain ⟨a00, a01, a10, a20, a21, a30, a40, a41, a50, a60, a61, a70, a71⟩ := idx0 t
  match a with
  | ⟨0, _⟩ => show win0_2.index t (0 : Fin 2) * 4096 + 1 * (y 0).val = (y 0).val; omega
  | ⟨1, _⟩ => show win0_2.index t (1 : Fin 2) * 81 + 1 * (y 1).val = (y 1).val; omega

/-- Window 3's one block is its whole array. -/
theorem blk0_3 (c : Dev nD) (t : Fin cfg0.N) : iblk0 V c 3 t = V c main_arg4 := by
  funext y
  show V c main_arg4 (((cfg0.win 3).blk t).view.emb y) = V c main_arg4 y
  refine congrArg (V c main_arg4) (funext fun a => Fin.ext ?_)
  obtain ⟨a00, a01, a10, a20, a21, a30, a40, a41, a50, a60, a61, a70, a71⟩ := idx0 t
  match a with
  | ⟨0, _⟩ => show win0_3.index t (0 : Fin 1) * 81 + 1 * (y 0).val = (y 0).val; omega

/-- Window 4's one block is its whole array. -/
theorem blk0_4 (c : Dev nD) (t : Fin cfg0.N) : iblk0 V c 4 t = V c main_arg5 := by
  funext y
  show V c main_arg5 (((cfg0.win 4).blk t).view.emb y) = V c main_arg5 y
  refine congrArg (V c main_arg5) (funext fun a => Fin.ext ?_)
  obtain ⟨a00, a01, a10, a20, a21, a30, a40, a41, a50, a60, a61, a70, a71⟩ := idx0 t
  match a with
  | ⟨0, _⟩ => show win0_4.index t (0 : Fin 2) * 4096 + 1 * (y 0).val = (y 0).val; omega
  | ⟨1, _⟩ => show win0_4.index t (1 : Fin 2) * 4 + 1 * (y 1).val = (y 1).val; omega

/-- Window 5's one block is its whole array. -/
theorem blk0_5 (c : Dev nD) (t : Fin cfg0.N) : iblk0 V c 5 t = V c main_arg6 := by
  funext y
  show V c main_arg6 (((cfg0.win 5).blk t).view.emb y) = V c main_arg6 y
  refine congrArg (V c main_arg6) (funext fun a => Fin.ext ?_)
  obtain ⟨a00, a01, a10, a20, a21, a30, a40, a41, a50, a60, a61, a70, a71⟩ := idx0 t
  match a with
  | ⟨0, _⟩ => show win0_5.index t (0 : Fin 1) * 4 + 1 * (y 0).val = (y 0).val; omega

/-- What the one point writes back to the combined weights' array: the first store's payload of the whole arrays. -/
theorem flushed0_6 (c : Dev nD) (t : Fin cfg0.N) :
    (dat0 V c).flushed 6 t
      = ((cfg0.win 6).blk t).view.read (Elt Ideal) (k0_pay1 (F := Ideal) (V c main_arg1) (V c main_arg3) (V c main_arg5)) := by
  show (cfg0.win 6).cut (grid0.coords t) ((dat0 V c).after 6 t) = _
  rw [after0_6]
  unfold out0_6
  rw [View.canon_unit_zero z2]
  simp only [View.ld_unit_zero (S := S1024x4096) z2, View.ld_unit_zero (S := S4096x81) z2, View.ld_unit_zero (S := S4096x4) z2]
  rw [blk0_0 V c t, blk0_2 V c t, blk0_4 V c t]
  funext y
  show k0_pay1 (F := Ideal) (V c main_arg1) (V c main_arg3) (V c main_arg5) y
    = k0_pay1 (F := Ideal) (V c main_arg1) (V c main_arg3) (V c main_arg5) (((cfg0.win 6).blk t).view.emb y)
  refine congrArg _ (funext fun a => Fin.ext ?_)
  obtain ⟨a00, a01, a10, a20, a21, a30, a40, a41, a50, a60, a61, a70, a71⟩ := idx0 t
  match a with
  | ⟨0, _⟩ => show (y 0).val = win0_6.index t (0 : Fin 2) * 1024 + 1 * (y 0).val; omega
  | ⟨1, _⟩ => show (y 1).val = win0_6.index t (1 : Fin 2) * 128 + 1 * (y 1).val; omega

/-- What the one point writes back to the combined bias row: the second store's payload of the whole arrays. -/
theorem flushed0_7 (c : Dev nD) (t : Fin cfg0.N) :
    (dat0 V c).flushed 7 t
      = ((cfg0.win 7).blk t).view.read (Elt Ideal)
          (k0_pay2 (F := Ideal) (V c main_arg2) (V c main_arg3) (V c main_arg4) (V c main_arg5) (V c main_arg6)) := by
  show (cfg0.win 7).cut (grid0.coords t) ((dat0 V c).after 7 t) = _
  rw [after0_7]
  unfold out0_7
  rw [View.canon_unit_zero z2]
  simp only [View.ld_unit_zero (S := S4096) z1, View.ld_unit_zero (S := S4096x81) z2, View.ld_unit_zero (S := S81) z1,
    View.ld_unit_zero (S := S4096x4) z2, View.ld_unit_zero (S := S4) z1]
  rw [blk0_1 V c t, blk0_2 V c t, blk0_3 V c t, blk0_4 V c t, blk0_5 V c t]
  funext y
  show k0_pay2 (F := Ideal) (V c main_arg2) (V c main_arg3) (V c main_arg4) (V c main_arg5) (V c main_arg6) y
    = k0_pay2 (F := Ideal) (V c main_arg2) (V c main_arg3) (V c main_arg4) (V c main_arg5) (V c main_arg6) (((cfg0.win 7).blk t).view.emb y)
  refine congrArg _ (funext fun a => Fin.ext ?_)
  obtain ⟨a00, a01, a10, a20, a21, a30, a40, a41, a50, a60, a61, a70, a71⟩ := idx0 t
  match a with
  | ⟨0, _⟩ => show (y 0).val = win0_7.index t (0 : Fin 2) * 1 + 1 * (y 0).val; omega
  | ⟨1, _⟩ => show (y 1).val = win0_7.index t (1 : Fin 2) * 128 + 1 * (y 1).val; omega

/-- The first region's one grid point. -/
abbrev pt0 : Fin cfg0.N := ⟨0, by decide⟩

/-- An index of the combined weights' array is in a point's block iff each coordinate is in the block's range. -/
theorem mem_blk0_6 (t : Fin cfg0.N) (i : S1024x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v0_0).slice (win0_6.rect t)).set ↔ _
  rw [View.set_slice_whole, Rect.mem_set_unit]
  exact Iff.rfl

/-- The same for the combined bias row. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v0_1).slice (win0_7.rect t)).set ↔ _
  rw [View.set_slice_whole, Rect.mem_set_unit]
  exact Iff.rfl

/-- Every entry of the combined weights' array lies in the one point's block. -/
theorem cover0_6 (i : S1024x128.Idx) : ∃ t : Fin cfg0.N, (cfg0.win 6).flush t = true ∧ i ∈ ((cfg0.win 6).blk t).view.set := by
  refine ⟨pt0, flush0_6 _, ?_⟩
  rw [mem_blk0_6]
  obtain ⟨a00, a01, a10, a20, a21, a30, a40, a41, a50, a60, a61, a70, a71⟩ := idx0 pt0
  intro a
  have h0 : (i 0).val < 1024 := (i 0).isLt
  have h1 : (i 1).val < 128 := (i 1).isLt
  match a with
  | ⟨0, _⟩ => show win0_6.index pt0 (0 : Fin 2) * 1024 ≤ (i 0).val ∧ (i 0).val < win0_6.index pt0 (0 : Fin 2) * 1024 + 1024; omega
  | ⟨1, _⟩ => show win0_6.index pt0 (1 : Fin 2) * 128 ≤ (i 1).val ∧ (i 1).val < win0_6.index pt0 (1 : Fin 2) * 128 + 128; omega

/-- Every entry of the combined bias row lies in the one point's block. -/
theorem cover0_7 (i : S1x128.Idx) : ∃ t : Fin cfg0.N, (cfg0.win 7).flush t = true ∧ i ∈ ((cfg0.win 7).blk t).view.set := by
  refine ⟨pt0, flush0_7 _, ?_⟩
  rw [mem_blk0_7]
  obtain ⟨a00, a01, a10, a20, a21, a30, a40, a41, a50, a60, a61, a70, a71⟩ := idx0 pt0
  intro a
  have h0 : (i 0).val < 1 := (i 0).isLt
  have h1 : (i 1).val < 128 := (i 1).isLt
  match a with
  | ⟨0, _⟩ => show win0_7.index pt0 (0 : Fin 2) * 1 ≤ (i 0).val ∧ (i 0).val < win0_7.index pt0 (0 : Fin 2) * 1 + 1; omega
  | ⟨1, _⟩ => show win0_7.index pt0 (1 : Fin 2) * 128 ≤ (i 1).val ∧ (i 1).val < win0_7.index pt0 (1 : Fin 2) * 128 + 128; omega

/-- THE COMBINED WEIGHTS after the first region: the first store's payload of W1, Wc, Wr as the region finds them. -/
theorem weights_array (c : Dev nD) :
    (dat0 V c).arrAt 6 cfg0.N = k0_pay1 (F := Ideal) (V c main_arg1) (V c main_arg3) (V c main_arg5) :=
  (dat0 V c).arrAt_eq_of_cover 6 _ (fun t _ => flushed0_6 V c t) cover0_6

/-- THE COMBINED BIAS ROW after the first region: the second store's payload of b1, Wc, bc, Wr, br. -/
theorem bias_array (c : Dev nD) :
    (dat0 V c).arrAt 7 cfg0.N
      = k0_pay2 (F := Ideal) (V c main_arg2) (V c main_arg3) (V c main_arg4) (V c main_arg5) (V c main_arg6) :=
  (dat0 V c).arrAt_eq_of_cover 7 _ (fun t _ => flushed0_7 V c t) cover0_7

/-! ## The second region: ten blocks of 2000 rows -/

/-- Entry (n, j') of the row-by-row result: x (0, n, ·) · wc (·, j') + bc (0, j'). -/
def rowScore (X : Vec Ideal S1x20000x1024 .f32) (wc : Vec Ideal S1024x128 .f32) (bc : Vec Ideal S1x128 .f32)
    (n : Fin 20000) (j' : Fin 128) : EReal :=
  (∑ k : Fin 1024, X (ix3 (0 : Fin 1) n k) * wc (ix2 k j')) + bc (ix2 (0 : Fin 1) j')

/-- The class scores as one function of the arrays: columns 0..80 of the row-by-row result. -/
def clssOf (X : Vec Ideal S1x20000x1024 .f32) (wc : Vec Ideal S1024x128 .f32) (bc : Vec Ideal S1x128 .f32) :
    S1x20000x81.Idx → EReal := fun i =>
  rowScore X wc bc ⟨(i 1).val, (i 1).isLt⟩ ⟨(i 2).val, by have h : (i 2).val < 81 := (i 2).isLt; omega⟩

/-- The regression output as one function of the arrays: columns 81..84 of the row-by-row result. -/
def regOf (X : Vec Ideal S1x20000x1024 .f32) (wc : Vec Ideal S1024x128 .f32) (bc : Vec Ideal S1x128 .f32) :
    S1x20000x4.Idx → EReal := fun i =>
  rowScore X wc bc ⟨(i 1).val, (i 1).isLt⟩ ⟨81 + (i 2).val, by have h : (i 2).val < 4 := (i 2).isLt; omega⟩

theorem clssOf_at (X : Vec Ideal S1x20000x1024 .f32) (wc : Vec Ideal S1024x128 .f32) (bc : Vec Ideal S1x128 .f32)
    (i : S1x20000x81.Idx) (n : Fin 20000) (j' : Fin 128) (h1 : (i 1).val = n.val) (h2 : (i 2).val = j'.val) :
    clssOf X wc bc i = rowScore X wc bc n j' :=
  congrArg₂ (rowScore X wc bc) (Fin.ext h1) (Fin.ext h2)

theorem regOf_at (X : Vec Ideal S1x20000x1024 .f32) (wc : Vec Ideal S1024x128 .f32) (bc : Vec Ideal S1x128 .f32)
    (i : S1x20000x4.Idx) (n : Fin 20000) (j' : Fin 128) (h1 : (i 1).val = n.val) (h2 : 81 + (i 2).val = j'.val) :
    regOf X wc bc i = rowScore X wc bc n j' :=
  congrArg₂ (rowScore X wc bc) (Fin.ext h1) (Fin.ext h2)

/-- The printed index maps over the second region's grid: the row axis' block index is the point, every other is zero. -/
theorem idx1 : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ t.val < 10 :=
  (by decide +kernel : ∀ t : Fin grid1.N, _)

/-- Every block of rows is some point's: point q. -/
theorem onto1 : ∀ q : Fin 10, ∃ t : Fin cfg1.N, t.val = q.val :=
  (by decide +kernel : ∀ q : Fin 10, ∃ t : Fin grid1.N, t.val = q.val)

/-- The combined weights' window has one block, the whole array. -/
theorem blk1_1 (c : Dev nD) (t : Fin cfg1.N) : iblk1 V c 1 t = V c main_v0_0 := by
  funext y
  show V c main_v0_0 (((cfg1.win 1).blk t).view.emb y) = V c main_v0_0 y
  refine congrArg (V c main_v0_0) (funext fun a => Fin.ext ?_)
  obtain ⟨x0, x1, x2, w0, w1, b0, b1, o0, o1, o2, r0, r1, r2, ht⟩ := idx1 t
  match a with
  | ⟨0, _⟩ => show win1_1.index t (0 : Fin 2) * 1024 + 1 * (y 0).val = (y 0).val; omega
  | ⟨1, _⟩ => show win1_1.index t (1 : Fin 2) * 128 + 1 * (y 1).val = (y 1).val; omega

/-- The combined bias row's window has one block, the whole row. -/
theorem blk1_2 (c : Dev nD) (t : Fin cfg1.N) : iblk1 V c 2 t = V c main_v0_1 := by
  funext y
  show V c main_v0_1 (((cfg1.win 2).blk t).view.emb y) = V c main_v0_1 y
  refine congrArg (V c main_v0_1) (funext fun a => Fin.ext ?_)
  obtain ⟨x0, x1, x2, w0, w1, b0, b1, o0, o1, o2, r0, r1, r2, ht⟩ := idx1 t
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Row n of point t's block of x is row 2000 t + n of the array. -/
theorem xblk_at (c : Dev nD) (t : Fin cfg1.N) (n : Fin 2000) (k : Fin 1024) (n' : Fin 20000) (hn : n'.val = t.val * 2000 + n.val) :
    iblk1 V c 0 t (ix3 (0 : Fin 1) n k) = V c main_arg0 (ix3 (0 : Fin 1) n' k) := by
  show V c main_arg0 (((cfg1.win 0).blk t).view.emb (ix3 (0 : Fin 1) n k)) = V c main_arg0 (ix3 (0 : Fin 1) n' k)
  refine congrArg (V c main_arg0) (funext fun a => Fin.ext ?_)
  obtain ⟨x0, x1, x2, w0, w1, b0, b1, o0, o1, o2, r0, r1, r2, ht⟩ := idx1 t
  match a with
  | ⟨0, _⟩ => show win1_0.index t (0 : Fin 3) * 1 + 1 * 0 = 0; omega
  | ⟨1, _⟩ => show win1_0.index t (1 : Fin 3) * 2000 + 1 * n.val = n'.val; omega
  | ⟨2, _⟩ => show win1_0.index t (2 : Fin 3) * 1024 + 1 * k.val = k.val; omega

/-- WHAT POINT t WRITES BACK to the class scores is block t of `clssOf` of the arrays as the region finds them. -/
theorem flushed1_3 (c : Dev nD) (t : Fin cfg1.N) :
    (dat1 V c).flushed 3 t
      = ((cfg1.win 3).blk t).view.read (Elt Ideal) (clssOf (V c main_arg0) (V c main_v0_0) (V c main_v0_1)) := by
  show (cfg1.win 3).cut (grid1.coords t) ((dat1 V c).after 3 t) = _
  rw [after1_3]
  unfold out1_3
  rw [View.canon_unit_zero z3]
  simp only [View.ld_unit_zero (S := S1x2000x1024) z3, View.ld_unit_zero (S := S1024x128) z2, View.ld_unit_zero (S := S1x128) z2]
  rw [blk1_1 V c t, blk1_2 V c t]
  funext y
  obtain ⟨u, n, j, rfl⟩ : ∃ (u : Fin 1) (n : Fin 2000) (j : Fin 81), y = ix3 u n j := ⟨y 0, y 1, y 2, eq_ix3 y⟩
  obtain ⟨x0, x1, x2, w0, w1, b0, b1, o0, o1, o2, r0, r1, r2, ht⟩ := idx1 t
  have hn : n.val < 2000 := n.isLt
  have hj : j.val < 81 := j.isLt
  refine (MainBody.clss_at (iblk1 V c 0 t) (V c main_v0_0) (V c main_v0_1) u n j ⟨j.val, by omega⟩ rfl).trans ?_
  refine Eq.trans ?_ (clssOf_at (V c main_arg0) (V c main_v0_0) (V c main_v0_1) (((cfg1.win 3).blk t).view.emb (ix3 u n j))
    ⟨t.val * 2000 + n.val, by omega⟩ ⟨j.val, by omega⟩ ?_ ?_).symm
  · unfold rowScore
    refine congrArg (· + V c main_v0_1 (ix2 (0 : Fin 1) ⟨j.val, by omega⟩)) (Finset.sum_congr rfl fun k _ => ?_)
    exact congrArg (· * V c main_v0_0 (ix2 k ⟨j.val, by omega⟩)) (xblk_at V c t n k ⟨t.val * 2000 + n.val, by omega⟩ rfl)
  · show win1_3.index t (1 : Fin 3) * 2000 + 1 * n.val = t.val * 2000 + n.val; omega
  · show win1_3.index t (2 : Fin 3) * 81 + 1 * j.val = j.val; omega

/-- WHAT POINT t WRITES BACK to the regression output is block t of `regOf` of the arrays as the region finds them. -/
theorem flushed1_4 (c : Dev nD) (t : Fin cfg1.N) :
    (dat1 V c).flushed 4 t
      = ((cfg1.win 4).blk t).view.read (Elt Ideal) (regOf (V c main_arg0) (V c main_v0_0) (V c main_v0_1)) := by
  show (cfg1.win 4).cut (grid1.coords t) ((dat1 V c).after 4 t) = _
  rw [after1_4]
  unfold out1_4
  rw [View.canon_unit_zero z3]
  simp only [View.ld_unit_zero (S := S1x2000x1024) z3, View.ld_unit_zero (S := S1024x128) z2, View.ld_unit_zero (S := S1x128) z2]
  rw [blk1_1 V c t, blk1_2 V c t]
  funext y
  obtain ⟨u, n, j, rfl⟩ : ∃ (u : Fin 1) (n : Fin 2000) (j : Fin 4), y = ix3 u n j := ⟨y 0, y 1, y 2, eq_ix3 y⟩
  obtain ⟨x0, x1, x2, w0, w1, b0, b1, o0, o1, o2, r0, r1, r2, ht⟩ := idx1 t
  have hn : n.val < 2000 := n.isLt
  have hj : j.val < 4 := j.isLt
  refine (MainBody.reg_at (iblk1 V c 0 t) (V c main_v0_0) (V c main_v0_1) u n j ⟨81 + j.val, by omega⟩ rfl).trans ?_
  refine Eq.trans ?_ (regOf_at (V c main_arg0) (V c main_v0_0) (V c main_v0_1) (((cfg1.win 4).blk t).view.emb (ix3 u n j))
    ⟨t.val * 2000 + n.val, by omega⟩ ⟨81 + j.val, by omega⟩ ?_ ?_).symm
  · unfold rowScore
    refine congrArg (· + V c main_v0_1 (ix2 (0 : Fin 1) ⟨81 + j.val, by omega⟩)) (Finset.sum_congr rfl fun k _ => ?_)
    exact congrArg (· * V c main_v0_0 (ix2 k ⟨81 + j.val, by omega⟩)) (xblk_at V c t n k ⟨t.val * 2000 + n.val, by omega⟩ rfl)
  · show win1_4.index t (1 : Fin 3) * 2000 + 1 * n.val = t.val * 2000 + n.val; omega
  · show 81 + (win1_4.index t (2 : Fin 3) * 4 + 1 * j.val) = 81 + j.val; omega

/-- An index of the class scores is in point t's block iff each coordinate is in the block's range on its axis. -/
theorem mem_blk1_3 (t : Fin cfg1.N) (i : S1x20000x81.Idx) :
    i ∈ ((cfg1.win 3).blk t).view.set ↔ ∀ a : Fin 3, win1_3.index t a * S1x2000x81.size a ≤ (i a).val ∧ (i a).val < win1_3.index t a * S1x2000x81.size a + S1x2000x81.size a := by
  show i ∈ ((View.whole main_v1_0).slice (win1_3.rect t)).set ↔ _
  rw [View.set_slice_whole, Rect.mem_set_unit]
  exact Iff.rfl

/-- The same for the regression output. -/
theorem mem_blk1_4 (t : Fin cfg1.N) (i : S1x20000x4.Idx) :
    i ∈ ((cfg1.win 4).blk t).view.set ↔ ∀ a : Fin 3, win1_4.index t a * S1x2000x4.size a ≤ (i a).val ∧ (i a).val < win1_4.index t a * S1x2000x4.size a + S1x2000x4.size a := by
  show i ∈ ((View.whole main_v1_1).slice (win1_4.rect t)).set ↔ _
  rw [View.set_slice_whole, Rect.mem_set_unit]
  exact Iff.rfl

/-- Row n of the class scores lies in the block of point n / 2000. -/
theorem cover1_3 (i : S1x20000x81.Idx) : ∃ t : Fin cfg1.N, (cfg1.win 3).flush t = true ∧ i ∈ ((cfg1.win 3).blk t).view.set := by
  have h0 : (i 0).val < 1 := (i 0).isLt
  have h1 : (i 1).val < 20000 := (i 1).isLt
  have h2 : (i 2).val < 81 := (i 2).isLt
  obtain ⟨t, ht⟩ := onto1 ⟨(i 1).val / 2000, by omega⟩
  have ht' : t.val = (i 1).val / 2000 := ht
  refine ⟨t, flush1_3 t, ?_⟩
  rw [mem_blk1_3]
  obtain ⟨x0, x1, x2, w0, w1, b0, b1, o0, o1, o2, r0, r1, r2, _⟩ := idx1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2000 ≤ (i 1).val ∧ (i 1).val < win1_3.index t (1 : Fin 3) * 2000 + 2000; omega
  | ⟨2, _⟩ => show win1_3.index t (2 : Fin 3) * 81 ≤ (i 2).val ∧ (i 2).val < win1_3.index t (2 : Fin 3) * 81 + 81; omega

/-- Row n of the regression output lies in the block of point n / 2000. -/
theorem cover1_4 (i : S1x20000x4.Idx) : ∃ t : Fin cfg1.N, (cfg1.win 4).flush t = true ∧ i ∈ ((cfg1.win 4).blk t).view.set := by
  have h0 : (i 0).val < 1 := (i 0).isLt
  have h1 : (i 1).val < 20000 := (i 1).isLt
  have h2 : (i 2).val < 4 := (i 2).isLt
  obtain ⟨t, ht⟩ := onto1 ⟨(i 1).val / 2000, by omega⟩
  have ht' : t.val = (i 1).val / 2000 := ht
  refine ⟨t, flush1_4 t, ?_⟩
  rw [mem_blk1_4]
  obtain ⟨x0, x1, x2, w0, w1, b0, b1, o0, o1, o2, r0, r1, r2, _⟩ := idx1 t
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 2000 ≤ (i 1).val ∧ (i 1).val < win1_4.index t (1 : Fin 3) * 2000 + 2000; omega
  | ⟨2, _⟩ => show win1_4.index t (2 : Fin 3) * 4 ≤ (i 2).val ∧ (i 2).val < win1_4.index t (2 : Fin 3) * 4 + 4; omega

/-- THE CLASS SCORES after the second region. -/
theorem clss_array (c : Dev nD) :
    (dat1 V c).arrAt 3 cfg1.N = clssOf (V c main_arg0) (V c main_v0_0) (V c main_v0_1) :=
  (dat1 V c).arrAt_eq_of_cover 3 _ (fun t _ => flushed1_3 V c t) cover1_3

/-- THE REGRESSION OUTPUT after the second region. -/
theorem reg_array (c : Dev nD) :
    (dat1 V c).arrAt 4 cfg1.N = regOf (V c main_arg0) (V c main_v0_0) (V c main_v0_1) :=
  (dat1 V c).arrAt_eq_of_cover 4 _ (fun t _ => flushed1_4 V c t) cover1_4

end Cert.KernelIdeal.Arrays

end
-- ==== Proof.KernelValue.lean ====
/-
  The idealized kernel's run with both results named as functions of the launch arrays. The second region finds x as
  launched (the first region does not touch it) and finds the combined weights and bias as the first region left
  them, which are its two stores' payloads of the launch arrays; so each result array ends at the row-by-row function
  of x, the combined weights and the combined bias row.
-/
import proofs.«154814_g34780645163084_cont_8to1_b_1480_11_alg».proof.Proof.NamedRun
import proofs.«154814_g34780645163084_cont_8to1_b_1480_11_alg».proof.Proof.Arrays

set_option maxRecDepth 16384

noncomputable section

namespace Cert.KernelIdeal.Final

open Cert.KernelIdeal Cert.KernelIdeal.Gen Cert.KernelIdeal.Arrays
open Idealize.ShloMosaic Idealize.ShloMosaic.TcCoe Idealize.SL.Sem

variable (m : (ℓ : Loc nD τ sig) → Buf (Elt Ideal) ℓ) (ρ : Dev nD → PrngReg)

/-- The combined weights, of the launch arrays: the first store's payload of W1, Wc, Wr. -/
abbrev weights (c : Dev nD) : Vec Ideal S1024x128 .f32 :=
  k0_pay1 (F := Ideal) (m ((c.tc : Thread nD τ).loc main_arg1)) (m ((c.tc : Thread nD τ).loc main_arg3)) (m ((c.tc : Thread nD τ).loc main_arg5))

/-- The combined bias row, of the launch arrays: the second store's payload of b1, Wc, bc, Wr, br. -/
abbrev bias (c : Dev nD) : Vec Ideal S1x128 .f32 :=
  k0_pay2 (F := Ideal) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The second region finds x as launched. -/
theorem x_kept (c : Dev nD) : V1 m ρ c main_arg0 = m ((c.tc : Thread nD τ).loc main_arg0) :=
  W1_of_ne m ρ c main_arg0 (by decide)

/-- The second region finds the combined weights as the first region left them. -/
theorem weights_found (c : Dev nD) : V1 m ρ c main_v0_0 = weights m c :=
  (W1_arr m ρ c 6).trans (weights_array (V0 m ρ) c)

/-- The second region finds the combined bias row as the first region left it. -/
theorem bias_found (c : Dev nD) : V1 m ρ c main_v0_1 = bias m c :=
  (W1_arr m ρ c 7).trans (bias_array (V0 m ρ) c)

/-- The class scores at the last boundary. -/
theorem clss_final (c : Dev nD) :
    W2 m ρ c (Proc.devRef .tc main_v1_0) = clssOf (m ((c.tc : Thread nD τ).loc main_arg0)) (weights m c) (bias m c) := by
  refine (W2_arr m ρ c 3).trans ((clss_array (V1 m ρ) c).trans ?_)
  rw [x_kept m ρ c, weights_found m ρ c, bias_found m ρ c]

/-- The regression output at the last boundary. -/
theorem reg_final (c : Dev nD) :
    W2 m ρ c (Proc.devRef .tc main_v1_1) = regOf (m ((c.tc : Thread nD τ).loc main_arg0)) (weights m c) (bias m c) := by
  refine (W2_arr m ρ c 4).trans ((reg_array (V1 m ρ) c).trans ?_)
  rw [x_kept m ρ c, weights_found m ρ c, bias_found m ρ c]

/-- THE RUN: every weakly fair execution terminates, nothing faulting, with the regression output and the class
    scores at their functions of the launch arrays and every argument array as launched. -/
theorem run : θ_run defs (onTc (τ := τ) (main (F := Ideal))) ⟨m, fun _ => 0, ρ⟩ (fun r => ∀ c : Dev nD,
      r.2.mem ((c.tc : Thread nD τ).loc main_v1_1) = regOf (m ((c.tc : Thread nD τ).loc main_arg0)) (weights m c) (bias m c)
      ∧ r.2.mem ((c.tc : Thread nD τ).loc main_v1_0) = clssOf (m ((c.tc : Thread nD τ).loc main_arg0)) (weights m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (reg_final m ρ c), (h c).2.1.trans (clss_final m ρ c), (h c).2.2⟩)
    (Cert.KernelIdeal.Named.run (F := Ideal) m ρ)

end Cert.KernelIdeal.Final

end
-- ==== Proof.CombineValue.lean ====
/-
  The weight-combining kernel's two stores, read at an entry, at the exact instance (where a change of float format
  is the identity and a matrix product into a zero accumulator is a plain finite sum).

  The first store is the [1024, 128] array whose columns 0..80 are W1 · Wc, columns 81..84 are W1 · Wr, and the rest
  zero: entry (k, j) is ∑ f, W1 (k, f) · Wc (f, j) for j < 81, and ∑ f, W1 (k, f) · Wr (f, j − 81) for 81 ≤ j < 85.
  The second store is the [1, 128] row with b1 · Wc + bc in columns 0..80 and b1 · Wr + br in columns 81..84.
  Only the first 85 columns are ever read back, so the zero columns are not described.
-/
import proofs.«154814_g34780645163084_cont_8to1_b_1480_11_alg».proof.Proof.Gen.KernelIdeal.Skeleton
import proofs.«154814_g34780645163084_cont_8to1_b_1480_11_alg».proof.Proof.LibMatmulPlain
import Idealize.ShloMosaic.Lib.ValueLayout
import Idealize.ShloMosaic.Lib.Pipeline.Value

noncomputable section

namespace Cert.KernelIdeal.Combine

open Cert.KernelIdeal Cert.KernelIdeal.Gen Idealize.ShloMosaic Idealize.ShloMosaic.ValueIdx

/-- A pointwise sum read at an index, at the exact instance, is the sum of the entries. -/
theorem addf_at {s : Shape} (A B : FVec Ideal s .f32) (i : s.Idx) : addf A B i = A i + B i := rfl

/-- Column j < 81 of the combined weights: (W1 · Wc) (k, j). -/
theorem weights_clss (W1 : Vec Ideal S1024x4096 .f32) (Wc : Vec Ideal S4096x81 .f32) (Wr : Vec Ideal S4096x4 .f32)
    (k : Fin 1024) (j : Fin 81) (j' : Fin 128) (hj : j'.val = j.val) :
    k0_pay1 (F := Ideal) W1 Wc Wr (ix2 k j') = ∑ f : Fin 4096, W1 (ix2 k f) * Wc (ix2 f j) := by
  unfold k0_pay1
  refine (concatenate_apply_piece (t := S1024x128) 1 _ _ (ix2 k j') 0 (by exact Nat.zero_lt_succ _) S1024x81 _ rfl rfl 0 rfl
    (ix2 k j) ?_ ?_).trans ?_
  · intro b hb
    match b with
    | ⟨0, _⟩ => rfl
    | ⟨1, _⟩ => exact absurd rfl hb
  · show 0 + j.val = j'.val
    omega
  · exact MatmulPlain.matmul_zero_apply none _ _ k j

/-- Column 81 + j (j < 4) of the combined weights: (W1 · Wr) (k, j). -/
theorem weights_reg (W1 : Vec Ideal S1024x4096 .f32) (Wc : Vec Ideal S4096x81 .f32) (Wr : Vec Ideal S4096x4 .f32)
    (k : Fin 1024) (j : Fin 4) (j' : Fin 128) (hj : j'.val = 81 + j.val) :
    k0_pay1 (F := Ideal) W1 Wc Wr (ix2 k j') = ∑ f : Fin 4096, W1 (ix2 k f) * Wr (ix2 f j) := by
  unfold k0_pay1
  refine (concatenate_apply_piece (t := S1024x128) 1 _ _ (ix2 k j') 1 (by exact Nat.succ_lt_succ (Nat.zero_lt_succ _)) S1024x4 _ rfl rfl 81 rfl
    (ix2 k j) ?_ ?_).trans ?_
  · intro b hb
    match b with
    | ⟨0, _⟩ => rfl
    | ⟨1, _⟩ => exact absurd rfl hb
  · show 81 + j.val = j'.val
    omega
  · exact MatmulPlain.matmul_zero_apply none _ _ k j

/-- Column j < 81 of the combined bias row: (b1 · Wc) j + bc j. -/
theorem bias_clss (b1 : Vec Ideal S4096 .f32) (Wc : Vec Ideal S4096x81 .f32) (bc : Vec Ideal S81 .f32)
    (Wr : Vec Ideal S4096x4 .f32) (br : Vec Ideal S4 .f32) (u : Fin 1) (j : Fin 81) (j' : Fin 128) (hj : j'.val = j.val) :
    k0_pay2 (F := Ideal) b1 Wc bc Wr br (ix2 u j') = (∑ f : Fin 4096, b1 (ix1 f) * Wc (ix2 f j)) + bc (ix1 j) := by
  unfold k0_pay2
  refine (concatenate_apply_piece (t := S1x128) 1 _ _ (ix2 u j') 0 (by exact Nat.zero_lt_succ _) S1x81 _ rfl rfl 0 rfl
    (ix2 u j) ?_ ?_).trans ?_
  · intro b hb
    match b with
    | ⟨0, _⟩ => rfl
    | ⟨1, _⟩ => exact absurd rfl hb
  · show 0 + j.val = j'.val
    omega
  · rw [addf_at, shapeCast_a_1a_apply bc _ u j]
    refine congrArg (· + bc (ix1 j)) ?_
    refine (MatmulPlain.matmul_zero_apply none _ _ u j).trans (Finset.sum_congr rfl fun f _ => ?_)
    exact congrArg (· * Wc (ix2 f j)) (shapeCast_a_1a_apply b1 _ u f)

/-- Column 81 + j (j < 4) of the combined bias row: (b1 · Wr) j + br j. -/
theorem bias_reg (b1 : Vec Ideal S4096 .f32) (Wc : Vec Ideal S4096x81 .f32) (bc : Vec Ideal S81 .f32)
    (Wr : Vec Ideal S4096x4 .f32) (br : Vec Ideal S4 .f32) (u : Fin 1) (j : Fin 4) (j' : Fin 128) (hj : j'.val = 81 + j.val) :
    k0_pay2 (F := Ideal) b1 Wc bc Wr br (ix2 u j') = (∑ f : Fin 4096, b1 (ix1 f) * Wr (ix2 f j)) + br (ix1 j) := by
  unfold k0_pay2
  refine (concatenate_apply_piece (t := S1x128) 1 _ _ (ix2 u j') 1 (by exact Nat.succ_lt_succ (Nat.zero_lt_succ _)) S1x4 _ rfl rfl 81 rfl
    (ix2 u j) ?_ ?_).trans ?_
  · intro b hb
    match b with
    | ⟨0, _⟩ => rfl
    | ⟨1, _⟩ => exact absurd rfl hb
  · show 81 + j.val = j'.val
    omega
  · rw [addf_at, shapeCast_a_1a_apply br _ u j]
    refine congrArg (· + br (ix1 j)) ?_
    refine (MatmulPlain.matmul_zero_apply none _ _ u j).trans (Finset.sum_congr rfl fun f _ => ?_)
    exact congrArg (· * Wr (ix2 f j)) (shapeCast_a_1a_apply b1 _ u f)

end Cert.KernelIdeal.Combine

end
-- ==== Proof.RefValue.lean ====
/-
  The reference's two results read at an entry, at the exact instance: the hidden layer is
  h (n, f) = ∑ k, x (0, n, k) · W1 (k, f) + b1 f, the class scores are ∑ f, h (n, f) · Wc (f, j) + bc j and the
  regression output is ∑ f, h (n, f) · Wr (f, j) + br j. Each is the chain of the reference's operations read one at a
  time at an index; the only arithmetic is that a row-major position n · 1024 + k splits back into (n, k).
-/
import proofs.«154814_g34780645163084_cont_8to1_b_1480_11_alg».proof.Proof.Gen.ReferenceIdeal.Read

noncomputable section

namespace Cert.ReferenceIdeal.RefValue

open Cert.ReferenceIdeal Cert.ReferenceIdeal.Read Idealize.ShloMosaic Idealize.ShloMosaic.ValueIdx

/-- Entry (n, f) of the hidden layer: x (0, n, ·) · W1 (·, f) + b1 f. -/
theorem hidden_at (x : (⟨S1x20000x1024, .f32⟩ : BufTy).Contents (Elt Ideal)) (W1 : (⟨S1024x4096, .f32⟩ : BufTy).Contents (Elt Ideal))
    (b1 : (⟨S4096, .f32⟩ : BufTy).Contents (Elt Ideal)) (n : Fin 20000) (f : Fin 4096) :
    val_main_v4 (F := Ideal) x W1 b1 (ix2 n f) = (∑ k : Fin 1024, x (ix3 (0 : Fin 1) n k) * W1 (ix2 k f)) + b1 (ix1 f) := by
  have e3 : idx_main_v3 (ix2 n f) = ix2 (0 : Fin 1) f :=
    funext fun a => Fin.ext (by match a with | ⟨0, _⟩ => rfl | ⟨1, _⟩ => rfl)
  have e2 : idx_main_v2 (ix2 (0 : Fin 1) f) = ix1 f :=
    funext fun a => Fin.ext (by match a with | ⟨0, _⟩ => rfl)
  have el : ∀ k : Fin 1024, lidx_main_v1 (ix2 n f) k = ix2 n k := fun k =>
    funext fun a => Fin.ext (by match a with | ⟨0, _⟩ => rfl | ⟨1, _⟩ => rfl)
  have er : ∀ k : Fin 1024, ridx_main_v1 (ix2 n f) k = ix2 k f := fun k =>
    funext fun a => Fin.ext (by match a with | ⟨0, _⟩ => rfl | ⟨1, _⟩ => rfl)
  have e0 : ∀ k : Fin 1024, idx_main_v0 (ix2 n k) = ix3 (0 : Fin 1) n k := fun k =>
    funext fun a => Fin.ext (by
      have hn : n.val < 20000 := n.isLt
      have hk : k.val < 1024 := k.isLt
      match a with
      | ⟨0, _⟩ => rfl
      | ⟨1, _⟩ => show (n.val * 1024 + k.val) / 1024 % 20000 = n.val; omega
      | ⟨2, _⟩ => show (n.val * 1024 + k.val) % 1024 = k.val; omega)
  rw [val_main_v4_apply, val_main_v1_apply, val_main_v3_apply, e3, val_main_v2_apply, e2]
  refine congrArg (· + b1 (ix1 f)) (Finset.sum_congr rfl fun k _ => ?_)
  rw [el, er, val_main_v0_apply, e0]

/-- Entry (u, n, j) of the reference's class scores: h (n, ·) · Wc (·, j) + bc j with h (n, f) = x (0, n, ·) · W1 (·, f) + b1 f. -/
theorem clss_at (x : (⟨S1x20000x1024, .f32⟩ : BufTy).Contents (Elt Ideal)) (W1 : (⟨S1024x4096, .f32⟩ : BufTy).Contents (Elt Ideal))
    (b1 : (⟨S4096, .f32⟩ : BufTy).Contents (Elt Ideal)) (W : (⟨S4096x81, .f32⟩ : BufTy).Contents (Elt Ideal))
    (b : (⟨S81, .f32⟩ : BufTy).Contents (Elt Ideal)) (u : Fin 1) (n : Fin 20000) (j : Fin 81) :
    val_main_v14 (F := Ideal) x W1 b1 W b (ix3 u n j)
      = (∑ f : Fin 4096, ((∑ k : Fin 1024, x (ix3 (0 : Fin 1) n k) * W1 (ix2 k f)) + b1 (ix1 f)) * W (ix2 f j)) + b (ix1 j) := by
  have eo : idx_main_v14 (ix3 u n j) = ix2 n j :=
    funext fun a => Fin.ext (by match a with | ⟨0, _⟩ => rfl | ⟨1, _⟩ => rfl)
  have eb2 : idx_main_v7 (ix2 n j) = ix2 (0 : Fin 1) j :=
    funext fun a => Fin.ext (by match a with | ⟨0, _⟩ => rfl | ⟨1, _⟩ => rfl)
  have eb1 : idx_main_v6 (ix2 (0 : Fin 1) j) = ix1 j :=
    funext fun a => Fin.ext (by match a with | ⟨0, _⟩ => rfl)
  have el : ∀ f : Fin 4096, lidx_main_v5 (ix2 n j) f = ix2 n f := fun f =>
    funext fun a => Fin.ext (by match a with | ⟨0, _⟩ => rfl | ⟨1, _⟩ => rfl)
  have er : ∀ f : Fin 4096, ridx_main_v5 (ix2 n j) f = ix2 f j := fun f =>
    funext fun a => Fin.ext (by match a with | ⟨0, _⟩ => rfl | ⟨1, _⟩ => rfl)
  rw [val_main_v14_apply, eo, val_main_v8_apply, val_main_v5_apply, val_main_v7_apply, eb2, val_main_v6_apply, eb1]
  refine congrArg (· + b (ix1 j)) (Finset.sum_congr rfl fun f _ => ?_)
  rw [el, er]
  exact congrArg (· * W (ix2 f j)) (hidden_at x W1 b1 n f)

/-- Entry (u, n, j) of the reference's regression output: h (n, ·) · Wr (·, j) + br j with h (n, f) = x (0, n, ·) · W1 (·, f) + b1 f. -/
theorem reg_at (x : (⟨S1x20000x1024, .f32⟩ : BufTy).Contents (Elt Ideal)) (W1 : (⟨S1024x4096, .f32⟩ : BufTy).Contents (Elt Ideal))
    (b1 : (⟨S4096, .f32⟩ : BufTy).Contents (Elt Ideal)) (W : (⟨S4096x4, .f32⟩ : BufTy).Contents (Elt Ideal))
    (b : (⟨S4, .f32⟩ : BufTy).Contents (Elt Ideal)) (u : Fin 1) (n : Fin 20000) (j : Fin 4) :
    val_main_v13 (F := Ideal) x W1 b1 W b (ix3 u n j)
      = (∑ f : Fin 4096, ((∑ k : Fin 1024, x (ix3 (0 : Fin 1) n k) * W1 (ix2 k f)) + b1 (ix1 f)) * W (ix2 f j)) + b (ix1 j) := by
  have eo : idx_main_v13 (ix3 u n j) = ix2 n j :=
    funext fun a => Fin.ext (by match a with | ⟨0, _⟩ => rfl | ⟨1, _⟩ => rfl)
  have eb2 : idx_main_v11 (ix2 n j) = ix2 (0 : Fin 1) j :=
    funext fun a => Fin.ext (by match a with | ⟨0, _⟩ => rfl | ⟨1, _⟩ => rfl)
  have eb1 : idx_main_v10 (ix2 (0 : Fin 1) j) = ix1 j :=
    funext fun a => Fin.ext (by match a with | ⟨0, _⟩ => rfl)
  have el : ∀ f : Fin 4096, lidx_main_v9 (ix2 n j) f = ix2 n f := fun f =>
    funext fun a => Fin.ext (by match a with | ⟨0, _⟩ => rfl | ⟨1, _⟩ => rfl)
  have er : ∀ f : Fin 4096, ridx_main_v9 (ix2 n j) f = ix2 f j := fun f =>
    funext fun a => Fin.ext (by match a with | ⟨0, _⟩ => rfl | ⟨1, _⟩ => rfl)
  rw [val_main_v13_apply, eo, val_main_v12_apply, val_main_v9_apply, val_main_v11_apply, eb2, val_main_v10_apply, eb1]
  refine congrArg (· + b (ix1 j)) (Finset.sum_congr rfl fun f _ => ?_)
  rw [el, er]
  exact congrArg (· * W (ix2 f j)) (hidden_at x W1 b1 n f)

end Cert.ReferenceIdeal.RefValue

end
-- ==== Proof.RealLaw.lean ====
/-
  The law over the reals that joins the two programs. A row `x` applied to the product of two matrices, plus a bias
  pushed through the second matrix, is the row applied to the first matrix, biased, and then applied to the second:

      ∑ f, ((∑ k, x k · w k f) + b f) · c f + d  =  ∑ k, x k · (∑ f, w k f · c f) + ((∑ f, b f · c f) + d).

  It is distributivity and an exchange of the two sums, so it is a fact about REAL numbers: on the extended reals
  a product does not distribute over a sum that meets an infinity. It is stated here for extended-real families every
  entry of which is a real number, which is what the inputs' finiteness gives.
-/
import Idealize.ShloMosaic.PureOps.Ideal.Laws

namespace Cert.RealLaw

open scoped BigOperators

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law, over the reals. -/
theorem collapse_real {K D : Type} [Fintype K] [Fintype D] (x : K → ℝ) (w : K → D → ℝ) (b c : D → ℝ) (d : ℝ) :
    (∑ f, ((∑ k, x k * w k f) + b f) * c f) + d = (∑ k, x k * ∑ f, w k f * c f) + ((∑ f, b f * c f) + d) := by
  have h1 : ∑ f, ((∑ k, x k * w k f) + b f) * c f = (∑ f, ∑ k, x k * w k f * c f) + ∑ f, b f * c f := by
    rw [← Finset.sum_add_distrib]
    exact Finset.sum_congr rfl fun f _ => by rw [add_mul, Finset.sum_mul]
  have h2 : ∑ k, x k * ∑ f, w k f * c f = ∑ k, ∑ f, x k * w k f * c f :=
    Finset.sum_congr rfl fun k _ => by
      rw [Finset.mul_sum]
      exact Finset.sum_congr rfl fun f _ => (mul_assoc _ _ _).symm
  rw [h1, h2, Finset.sum_comm, add_assoc]

/-- The law for extended-real families whose entries are all real numbers. -/
theorem collapse {K D : Type} [Fintype K] [Fintype D] (x : K → EReal) (w : K → D → EReal) (b c : D → EReal) (d : EReal)
    (hx : ∀ k, ∃ r : ℝ, x k = r) (hw : ∀ k f, ∃ r : ℝ, w k f = r) (hb : ∀ f, ∃ r : ℝ, b f = r)
    (hc : ∀ f, ∃ r : ℝ, c f = r) (hd : ∃ r : ℝ, d = r) :
    (∑ f, ((∑ k, x k * w k f) + b f) * c f) + d = (∑ k, x k * ∑ f, w k f * c f) + ((∑ f, b f * c f) + d) := by
  choose xr hxr using hx
  choose wr hwr using hw
  choose br hbr using hb
  choose cr hcr using hc
  obtain ⟨dr, rfl⟩ := hd
  obtain rfl : x = fun k => (xr k : EReal) := funext hxr
  obtain rfl : w = fun k f => (wr k f : EReal) := funext fun k => funext fun f => hwr k f
  obtain rfl : b = fun f => (br f : EReal) := funext hbr
  obtain rfl : c = fun f => (cr f : EReal) := funext hcr
  simp only [← EReal.coe_mul, ← coe_sum, ← EReal.coe_add]
  exact congrArg _ (collapse_real xr wr br cr dr)

end Cert.RealLaw
-- ==== Proof.Bridge.lean ====
/-
  The bridge: under the precondition the idealized kernel's two results are the reference's, entry by entry.
  At (0, n, j) the kernel holds ∑ k, x (0, n, k) · (∑ f, W1 (k, f) · W (f, j)) + (∑ f, b1 f · W (f, j) + b j) and the
  reference ∑ f, (∑ k, x (0, n, k) · W1 (k, f) + b1 f) · W (f, j) + b j, with (W, b) = (Wc, bc) for the class scores
  and (Wr, br) for the regression output. With every entry of every array a real number the two are equal: the product
  distributes over the inner sum and the two sums exchange.
-/
import proofs.«154814_g34780645163084_cont_8to1_b_1480_11_alg».proof.Proof.Arrays
import proofs.«154814_g34780645163084_cont_8to1_b_1480_11_alg».proof.Proof.CombineValue
import proofs.«154814_g34780645163084_cont_8to1_b_1480_11_alg».proof.Proof.RefValue
import proofs.«154814_g34780645163084_cont_8to1_b_1480_11_alg».proof.Proof.RealLaw

noncomputable section

namespace Cert.Bridge

open Idealize.ShloMosaic Idealize.ShloMosaic.ValueIdx
open Cert.KernelIdeal (S1x20000x1024 S1024x4096 S4096 S4096x81 S81 S4096x4 S4 S1x20000x81 S1x20000x4)
open Cert.KernelIdeal.Gen (k0_pay1 k0_pay2)
open Cert.KernelIdeal.Arrays (clssOf regOf rowScore clssOf_at regOf_at)

variable (x : Vec Ideal S1x20000x1024 .f32) (W1 : Vec Ideal S1024x4096 .f32) (b1 : Vec Ideal S4096 .f32)
  (Wc : Vec Ideal S4096x81 .f32) (bc : Vec Ideal S81 .f32) (Wr : Vec Ideal S4096x4 .f32) (br : Vec Ideal S4 .f32)

/-- The class scores: the kernel's array is the reference's, when every entry is a real number. -/
theorem clss_eq (hx : ∀ i, ∃ r : ℝ, x i = r) (hW1 : ∀ i, ∃ r : ℝ, W1 i = r) (hb1 : ∀ i, ∃ r : ℝ, b1 i = r)
    (hWc : ∀ i, ∃ r : ℝ, Wc i = r) (hbc : ∀ i, ∃ r : ℝ, bc i = r) :
    clssOf x (k0_pay1 (F := Ideal) W1 Wc Wr) (k0_pay2 (F := Ideal) b1 Wc bc Wr br)
      = Cert.ReferenceIdeal.Read.val_main_v14 (F := Ideal) x W1 b1 Wc bc := by
  funext i
  obtain ⟨u, n, j, rfl⟩ : ∃ (u : Fin 1) (n : Fin 20000) (j : Fin 81), i = ix3 u n j := ⟨i 0, i 1, i 2, eq_ix3 i⟩
  have hj : j.val < 81 := j.isLt
  rw [clssOf_at x _ _ (ix3 u n j) n ⟨j.val, by omega⟩ rfl rfl, Cert.ReferenceIdeal.RefValue.clss_at x W1 b1 Wc bc u n j]
  unfold rowScore
  rw [Cert.KernelIdeal.Combine.bias_clss b1 Wc bc Wr br (0 : Fin 1) j ⟨j.val, by omega⟩ rfl]
  simp only [Cert.KernelIdeal.Combine.weights_clss W1 Wc Wr _ j ⟨j.val, by omega⟩ rfl]
  exact (Cert.RealLaw.collapse (fun k : Fin 1024 => x (ix3 (0 : Fin 1) n k)) (fun (k : Fin 1024) (f : Fin 4096) => W1 (ix2 k f))
    (fun f : Fin 4096 => b1 (ix1 f)) (fun f : Fin 4096 => Wc (ix2 f j)) (bc (ix1 j))
    (fun k => hx _) (fun k f => hW1 _) (fun f => hb1 _) (fun f => hWc _) (hbc _)).symm

/-- The regression output: the kernel's array is the reference's, when every entry is a real number. -/
theorem reg_eq (hx : ∀ i, ∃ r : ℝ, x i = r) (hW1 : ∀ i, ∃ r : ℝ, W1 i = r) (hb1 : ∀ i, ∃ r : ℝ, b1 i = r)
    (hWr : ∀ i, ∃ r : ℝ, Wr i = r) (hbr : ∀ i, ∃ r : ℝ, br i = r) :
    regOf x (k0_pay1 (F := Ideal) W1 Wc Wr) (k0_pay2 (F := Ideal) b1 Wc bc Wr br)
      = Cert.ReferenceIdeal.Read.val_main_v13 (F := Ideal) x W1 b1 Wr br := by
  funext i
  obtain ⟨u, n, j, rfl⟩ : ∃ (u : Fin 1) (n : Fin 20000) (j : Fin 4), i = ix3 u n j := ⟨i 0, i 1, i 2, eq_ix3 i⟩
  have hj : j.val < 4 := j.isLt
  rw [regOf_at x _ _ (ix3 u n j) n ⟨81 + j.val, by omega⟩ rfl rfl, Cert.ReferenceIdeal.RefValue.reg_at x W1 b1 Wr br u n j]
  unfold rowScore
  rw [Cert.KernelIdeal.Combine.bias_reg b1 Wc bc Wr br (0 : Fin 1) j ⟨81 + j.val, by omega⟩ rfl]
  simp only [Cert.KernelIdeal.Combine.weights_reg W1 Wc Wr _ j ⟨81 + j.val, by omega⟩ rfl]
  exact (Cert.RealLaw.collapse (fun k : Fin 1024 => x (ix3 (0 : Fin 1) n k)) (fun (k : Fin 1024) (f : Fin 4096) => W1 (ix2 k f))
    (fun f : Fin 4096 => b1 (ix1 f)) (fun f : Fin 4096 => Wr (ix2 f j)) (br (ix1 j))
    (fun k => hx _) (fun k f => hW1 _) (fun f => hb1 _) (fun f => hWr _) (hbr _)).symm

end Cert.Bridge

end
-- ==== Proof.lean ====
/-
  The certificate of a fused classifier-and-regressor head. The reference applies two linear layers in a row,
      h = x · W1 + b1,   class scores = h · Wc + bc,   regression output = h · Wr + br,
  over 20000 rows. The kernel collapses them: one launch forms the combined weights W1 · [Wc | Wr] and the combined bias
  row b1 · [Wc | Wr] + [bc | br] (padded with zero columns to 128), and a second launch computes, ten blocks of 2000
  rows at a time, x · (combined weights) + (combined bias row) and splits the columns into the two results.

  Read at the exact instance (a change of float format is the identity, a matrix product into a zero accumulator a
  finite sum), entry (0, n, j) of a result is
      kernel:     ∑ k, x (0, n, k) · (∑ f, W1 (k, f) · W (f, j)) + (∑ f, b1 f · W (f, j) + b j)
      reference:  ∑ f, (∑ k, x (0, n, k) · W1 (k, f) + b1 f) · W (f, j) + b j
  with (W, b) = (Wc, bc) or (Wr, br). They agree by distributivity and an exchange of the two sums, which is a law of
  the REAL numbers; the precondition (every input entry finite) is what makes every entry a real number, and it is used
  exactly there.

  The frames of the two kernel programs are the generated ones; the reference's frame is its generated run with the
  results dropped; the idealization rewrote no operation, so there is nothing to preserve.
-/
import proofs.«154814_g34780645163084_cont_8to1_b_1480_11_alg».proof.Defs
import proofs.«154814_g34780645163084_cont_8to1_b_1480_11_alg».proof.Proof.Gen.Kernel
import proofs.«154814_g34780645163084_cont_8to1_b_1480_11_alg».proof.Proof.Gen.Kernel.Skeleton
import proofs.«154814_g34780645163084_cont_8to1_b_1480_11_alg».proof.Proof.Gen.Kernel.Launch
import proofs.«154814_g34780645163084_cont_8to1_b_1480_11_alg».proof.Proof.Gen.Kernel.Points
import proofs.«154814_g34780645163084_cont_8to1_b_1480_11_alg».proof.Proof.Gen.Kernel.Frame
import proofs.«154814_g34780645163084_cont_8to1_b_1480_11_alg».proof.Proof.Gen.KernelIdeal
import proofs.«154814_g34780645163084_cont_8to1_b_1480_11_alg».proof.Proof.Gen.KernelIdeal.Skeleton
import proofs.«154814_g34780645163084_cont_8to1_b_1480_11_alg».proof.Proof.Gen.KernelIdeal.Launch
import proofs.«154814_g34780645163084_cont_8to1_b_1480_11_alg».proof.Proof.Gen.KernelIdeal.Points
import proofs.«154814_g34780645163084_cont_8to1_b_1480_11_alg».proof.Proof.Gen.KernelIdeal.Frame
import proofs.«154814_g34780645163084_cont_8to1_b_1480_11_alg».proof.Proof.Gen.ReferenceIdeal
import proofs.«154814_g34780645163084_cont_8to1_b_1480_11_alg».proof.Proof.Gen.Pre_finite_inputs
import proofs.«154814_g34780645163084_cont_8to1_b_1480_11_alg».proof.Proof.Gen.ReferenceIdeal.Run
import proofs.«154814_g34780645163084_cont_8to1_b_1480_11_alg».proof.Proof.Gen.ReferenceIdeal.Read
import proofs.«154814_g34780645163084_cont_8to1_b_1480_11_alg».proof.Proof.FiniteInputs
import proofs.«154814_g34780645163084_cont_8to1_b_1480_11_alg».proof.Proof.KernelValue
import proofs.«154814_g34780645163084_cont_8to1_b_1480_11_alg».proof.Proof.Bridge
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run, read back, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, under the precondition, both programs end with the same two results:
    the kernel's run names its results as functions of the launch arrays, the reference's run names its own, and
    with every entry real the two functions are equal entry by entry. -/
theorem algebraic : Cert.algebraic_KernelIdeal_ReferenceIdeal := by
  intro m ρ m' ρ' hpre hagree
  refine ⟨_, _, Cert.KernelIdeal.Final.run m ρ, ?_⟩
  refine (θ_run Cert.ReferenceIdeal.defs _ _).mono (fun r h c => ?_) (Cert.ReferenceIdeal.Value.run (F := Ideal) m' ρ')
  obtain ⟨h13, h14, hargs⟩ := h c
  obtain ⟨e0, e1, e2, e3, e4, e5, e6⟩ := hagree c
  obtain ⟨f0, f1, f2, f3, f4, f5, f6⟩ := Cert.FiniteInputs.reals_of_pre _ _ _ _ _ _ _ (hpre c)
  refine ⟨h13.trans ?_, h14.trans ?_, hargs⟩
  · rw [Cert.ReferenceIdeal.Read.val_main_v13_eq, e0, e1, e2, e5, e6]
    exact (Cert.Bridge.reg_eq _ _ _ _ _ _ _ f0 f1 f2 f5 f6).symm
  · rw [Cert.ReferenceIdeal.Read.val_main_v14_eq, e0, e1, e2, e3, e4]
    exact (Cert.Bridge.clss_eq _ _ _ _ _ _ _ f0 f1 f2 f3 f4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
